-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32 : Shape := ⟨3, ![4, 64, 32]⟩
abbrev S_ : Shape := ⟨0, ![]⟩

class Facts : Prop where
  bcast_S_S4x64x32 : S_.BroadcastsInDim S4x64x32 (![] : Fin 0 → Fin S4x64x32.rank)
  reducesTo_S4x64x32_S_d0_1_2 : S4x64x32.ReducesTo [0, 1, 2] S_
  h_S_ : 0 < S_.numel

variable [Facts]

def fn {F : FTy → Type} [FloatOps F] (main_arg0 : FVec F S4x64x32 .f32) (main_arg1 : FVec F S4x64x32 .f32) : IVec S_ 1 :=
  let main_v0 : FVec F S4x64x32 .f32 := Host.absf main_arg0
  let main_cst : FVec F S_ .f32 := constant S_ .f32 0x7F800000#32
  let main_v1 : FVec F S4x64x32 .f32 := broadcastInDim S4x64x32 ![] bcast_S_S4x64x32 main_cst
  let main_v2 : IVec S4x64x32 1 := cmpf .olt main_v0 main_v1
  let main_c : IVec S_ 1 := constantI S_ 1 1#1
  let main_v3 : IVec S_ 1 := (fun x v => Host.reduce IntOp.andi x v reducesTo_S4x64x32_S_d0_1_2 h_S_) main_v2 main_c
  let main_v4 : FVec F S4x64x32 .f32 := Host.absf main_arg1
  let main_cst_0 : FVec F S_ .f32 := constant S_ .f32 0x7F800000#32
  let main_v5 : FVec F S4x64x32 .f32 := broadcastInDim S4x64x32 ![] bcast_S_S4x64x32 main_cst_0
  let main_v6 : IVec S4x64x32 1 := cmpf .olt main_v4 main_v5
  let main_c_1 : IVec S_ 1 := constantI S_ 1 1#1
  let main_v7 : IVec S_ 1 := (fun x v => Host.reduce IntOp.andi x v reducesTo_S4x64x32_S_d0_1_2 h_S_) main_v6 main_c_1
  let main_v8 : IVec S_ 1 := andi main_v3 main_v7
  main_v8
-- ==== Kernel.lean ====
abbrev S4x64x32 : Shape := ⟨3, ![4, 64, 32]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x1 : Shape := ⟨2, ![128, 1]⟩
abbrev S128x8192 : Shape := ⟨2, ![128, 8192]⟩
abbrev S128 : Shape := ⟨1, ![128]⟩
abbrev S1 : Shape := ⟨1, ![1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x64x32, .f32⟩
  | .hbm, ⟨1, _⟩ => ⟨S4x64x32, .f32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S1x8192, .f32⟩
  | .hbm, ⟨7, _⟩ => ⟨S1x8192, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S1x8192, .f32⟩
  | .local _ .vmem, ⟨5, _⟩ => ⟨S1x8192, .f32⟩
  | .local _ .vmem, ⟨6, _⟩ => ⟨S1x1, .f32⟩
  | _, _ => ⟨S4x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S4x64x32_S8192 : S4x64x32.ShapeCasts S8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x8192_S128x8192 : S1x8192.Broadcasts S128x8192
  broadcasts_S128x1_S128x8192 : S128x1.Broadcasts S128x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v2) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x32 : Shape := ⟨3, ![4, 64, 32]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x64x32, .f32⟩
  | .hbm, ⟨1, _⟩ => ⟨S4x64x32, .f32⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S1x8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  shapeCasts_S4x64x32_S8192 : S4x64x32.ShapeCasts S8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.PairSum.lean ====
/-
  Sums over ordered pairs of a symmetric array with a zero diagonal.

  For `a : ι → ι → ℝ` with `a i j = a j i` and `a i i = 0` over a finite linear order, every
  unordered pair `{i, j}`, `i ≠ j`, is counted twice in the full double sum — once as `(i, j)`, once
  as `(j, i)` — and the diagonal contributes nothing, so the full sum is twice the sum over `i < j`.
-/
import Idealize.ShloMosaic.PureOps.Ideal.Laws

namespace Cert.PairSum

open Finset

/-- Each entry of a symmetric array with zero diagonal is its strictly-upper part at `(i, j)` plus
    its strictly-upper part at `(j, i)`: exactly one of `i < j`, `i = j`, `j < i` holds. -/
theorem entry_split {ι : Type*} [LinearOrder ι] (a : ι → ι → ℝ)
    (hs : ∀ i j, a i j = a j i) (hd : ∀ i, a i i = 0) (i j : ι) :
    a i j = (if i < j then a i j else 0) + (if j < i then a j i else 0) := by
  rcases lt_trichotomy i j with h | h | h
  · rw [if_pos h, if_neg (not_lt_of_gt h), add_zero]
  · subst h; rw [if_neg (lt_irrefl _), hd, add_zero]
  · rw [if_neg (not_lt_of_gt h), if_pos h, zero_add, hs i j]

/-- The full double sum of a symmetric array with zero diagonal is twice its sum over `i < j`. -/
theorem sum_all_eq_two_mul_upper {ι : Type*} [Fintype ι] [LinearOrder ι] (a : ι → ι → ℝ)
    (hs : ∀ i j, a i j = a j i) (hd : ∀ i, a i i = 0) :
    ∑ i, ∑ j, a i j = 2 * ∑ i, ∑ j, (if i < j then a i j else 0) := by
  have hsplit : ∑ i, ∑ j, a i j
      = ∑ i, ∑ j, (if i < j then a i j else 0) + ∑ i, ∑ j, (if j < i then a j i else 0) := by
    rw [← Finset.sum_add_distrib]
    refine Finset.sum_congr rfl fun i _ => ?_
    rw [← Finset.sum_add_distrib]
    exact Finset.sum_congr rfl fun j _ => entry_split a hs hd i j
  have hswap : ∑ i, ∑ j, (if j < i then a j i else 0) = ∑ i, ∑ j, (if i < j then a i j else 0) :=
    Finset.sum_comm
  rw [hsplit, hswap, two_mul]

end Cert.PairSum
-- ==== Proof.Agreement.lean ====
/-
  The pairwise agreement of two vectors of length 8192, summed two ways.

  For real vectors `p`, `q` and a scale `κ` the agreement of the pair `(i, j)` is
  `tanh ((p j - p i) · (q j - q i) · κ)`. Swapping `i` and `j` negates both differences and leaves
  their product unchanged, so the agreement is symmetric, and on the diagonal both differences vanish,
  so it is `tanh 0 = 0`. Hence the sum over ALL ordered pairs is twice the sum over the pairs
  `i < j`, and the full sum divided by `8192 · 8191` is the upper sum divided by `8192 · 8191 / 2`.

  The full sum is taken here the way a row-blocked accumulation takes it: 64 blocks of 128 rows,
  block `s` holding rows `128 s .. 128 s + 127`, each block summed over its rows and over all
  8192 columns, the block sums added one after another onto `0`. Over the extended reals, with every
  entry a real number, each of these sums is the coercion of the same sum of reals, so the order and
  grouping do not matter.
-/
import Idealize.ShloMosaic.PureOps.Ideal.Laws
import Idealize.ShloMosaic.Lib.ValueIdx
import proofs.«123541_j81123342287264_1_alg».proof.Proof.PairSum

noncomputable section

namespace Cert.Agreement

open Idealize.ShloMosaic Idealize.ShloMosaic.ValueIdx Finset

/-! ## Over the reals -/

/-- The agreement of the pair `(i, j)`. -/
def agreeR (κ : ℝ) (p q : Fin 8192 → ℝ) (i j : Fin 8192) : ℝ :=
  Real.tanh ((p j - p i) * (q j - q i) * κ)

/-- Both differences change sign together: the product, and so the agreement, is symmetric. -/
theorem agreeR_symm (κ : ℝ) (p q : Fin 8192 → ℝ) (i j : Fin 8192) :
    agreeR κ p q i j = agreeR κ p q j i := by
  unfold agreeR; congr 1; ring

/-- A point agrees with itself by `tanh 0 = 0`. -/
theorem agreeR_diag (κ : ℝ) (p q : Fin 8192 → ℝ) (i : Fin 8192) : agreeR κ p q i i = 0 := by
  unfold agreeR; rw [sub_self, zero_mul, zero_mul, Real.tanh_zero]

/-- The sum over all ordered pairs. -/
def totalR (κ : ℝ) (p q : Fin 8192 → ℝ) : ℝ := ∑ i, ∑ j, agreeR κ p q i j

/-- The sum over the pairs `i < j`. -/
def upperR (κ : ℝ) (p q : Fin 8192 → ℝ) : ℝ := ∑ i, ∑ j, if i < j then agreeR κ p q i j else 0

theorem totalR_eq (κ : ℝ) (p q : Fin 8192 → ℝ) : totalR κ p q = 2 * upperR κ p q :=
  Cert.PairSum.sum_all_eq_two_mul_upper _ (agreeR_symm κ p q) (agreeR_diag κ p q)

/-- Row `r` of row block `s` (128 rows to a block). Reduced modulo 8192 so that it names a row for
    every natural `s`; for `s < 64` the reduction does nothing. -/
def rowOf (s : ℕ) (r : Fin 128) : Fin 8192 := ⟨(128 * s + r.val) % 8192, Nat.mod_lt _ (by norm_num)⟩

/-- The sum of block `s`: its 128 rows against all columns. -/
def blockR (κ : ℝ) (p q : Fin 8192 → ℝ) (s : ℕ) : ℝ := ∑ r : Fin 128, ∑ j, agreeR κ p q (rowOf s r) j

/-- The 64 blocks of 128 rows are all 8192 rows, each once: `(s, r) ↦ 128 s + r` is a bijection
    `Fin 64 × Fin 128 ≃ Fin 8192`. -/
theorem sum_blocks (κ : ℝ) (p q : Fin 8192 → ℝ) : ∑ s ∈ range 64, blockR κ p q s = totalR κ p q := by
  unfold blockR totalR
  rw [Finset.sum_range (f := fun s => ∑ r : Fin 128, ∑ j, agreeR κ p q (rowOf s r) j),
    ← Fintype.sum_prod_type' (f := fun (s : Fin 64) (r : Fin 128) => ∑ j, agreeR κ p q (rowOf s.val r) j)]
  refine Fintype.sum_equiv (finProdFinEquiv : Fin 64 × Fin 128 ≃ Fin 8192) _ _ fun x => ?_
  have hx : rowOf x.1.val x.2 = (finProdFinEquiv : Fin 64 × Fin 128 ≃ Fin 8192) x :=
    Fin.ext (by
      show (128 * x.1.val + x.2.val) % 8192 = x.2.val + 128 * x.1.val
      have h1 := x.1.isLt; have h2 := x.2.isLt; omega)
  rw [hx]

/-! ## Over the extended reals, at real entries -/

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The agreement of the pair `(i, j)` over the extended reals, scale `c`. -/
def agree (c : EReal) (P Q : Fin 8192 → EReal) (i j : Fin 8192) : EReal :=
  Ideal.tanh ((P j - P i) * (Q j - Q i) * c)

theorem agree_coe (κ : ℝ) (p q : Fin 8192 → ℝ) (i j : Fin 8192) :
    agree (κ : EReal) (fun k => ((p k : ℝ) : EReal)) (fun k => ((q k : ℝ) : EReal)) i j
      = ((agreeR κ p q i j : ℝ) : EReal) := by
  unfold agree agreeR
  rw [← EReal.coe_sub, ← EReal.coe_sub, ← EReal.coe_mul, ← EReal.coe_mul]
  rfl

/-- Block `s` summed over the extended reals. -/
def blockE (c : EReal) (P Q : Fin 8192 → EReal) (s : ℕ) : EReal :=
  ∑ r : Fin 128, ∑ j : Fin 8192, agree c P Q (rowOf s r) j

theorem blockE_coe (κ : ℝ) (p q : Fin 8192 → ℝ) (s : ℕ) :
    blockE (κ : EReal) (fun k => ((p k : ℝ) : EReal)) (fun k => ((q k : ℝ) : EReal)) s
      = ((blockR κ p q s : ℝ) : EReal) := by
  unfold blockE blockR
  simp only [agree_coe, coe_sum]

/-- The running total after block `n`: the blocks added one after another onto `0`. -/
def chainE (c : EReal) (P Q : Fin 8192 → EReal) : ℕ → EReal
  | 0 => 0 + blockE c P Q 0
  | n + 1 => chainE c P Q n + blockE c P Q (n + 1)

theorem chainE_coe (κ : ℝ) (p q : Fin 8192 → ℝ) : ∀ n : ℕ,
    chainE (κ : EReal) (fun k => ((p k : ℝ) : EReal)) (fun k => ((q k : ℝ) : EReal)) n
      = ((∑ s ∈ range (n + 1), blockR κ p q s : ℝ) : EReal)
  | 0 => by rw [chainE, blockE_coe, zero_add, Finset.sum_range_one]
  | n + 1 => by rw [chainE, chainE_coe κ p q n, blockE_coe, ← EReal.coe_add, ← Finset.sum_range_succ]

/-- The sum over all pairs of the agreement times the indicator of `i < j`, over the index set of
    an `8192 × 8192` array. -/
def upperE (c : EReal) (P Q : Fin 8192 → EReal) : EReal :=
  ∑ x : (⟨2, ![8192, 8192]⟩ : Shape).Idx, agree c P Q (x 0) (x 1) * (if x 0 < x 1 then ((1 : ℝ) : EReal) else ((0 : ℝ) : EReal))

theorem upperE_coe (κ : ℝ) (p q : Fin 8192 → ℝ) :
    upperE (κ : EReal) (fun k => ((p k : ℝ) : EReal)) (fun k => ((q k : ℝ) : EReal))
      = ((upperR κ p q : ℝ) : EReal) := by
  unfold upperE upperR
  rw [sum_idx2]
  have h : ∀ a b : Fin 8192,
      agree (κ : EReal) (fun k => ((p k : ℝ) : EReal)) (fun k => ((q k : ℝ) : EReal)) ((ix2 a b : (⟨2, ![8192, 8192]⟩ : Shape).Idx) 0) ((ix2 a b : (⟨2, ![8192, 8192]⟩ : Shape).Idx) 1)
        * (if (ix2 a b : (⟨2, ![8192, 8192]⟩ : Shape).Idx) 0 < (ix2 a b : (⟨2, ![8192, 8192]⟩ : Shape).Idx) 1 then ((1 : ℝ) : EReal) else ((0 : ℝ) : EReal))
      = (((if a < b then agreeR κ p q a b else 0 : ℝ)) : EReal) := by
    intro a b
    show agree _ _ _ a b * (if a < b then _ else _) = _
    rw [agree_coe]
    split
    · rw [← EReal.coe_mul, mul_one]
    · rw [← EReal.coe_mul, mul_zero]
  simp only [h, coe_sum]

/-- THE LAW. With real entries and a real scale, the running total after the last block divided
    by `8192 · 8191` is `0` plus the sum over `i < j` divided by `8192 · 8191 / 2`. -/
theorem total_div_eq_upper_div (κ : ℝ) (p q : Fin 8192 → ℝ) :
    Ideal.div (chainE (κ : EReal) (fun k => ((p k : ℝ) : EReal)) (fun k => ((q k : ℝ) : EReal)) 63) ((67100672 : ℝ) : EReal)
      = Ideal.div (0 + upperE (κ : EReal) (fun k => ((p k : ℝ) : EReal)) (fun k => ((q k : ℝ) : EReal))) ((33550336 : ℝ) : EReal) := by
  rw [chainE_coe, upperE_coe, zero_add, sum_blocks, totalR_eq,
    Ideal.div_coe (by norm_num : (67100672 : ℝ) ≠ 0), Ideal.div_coe (by norm_num : (33550336 : ℝ) ≠ 0),
    ← EReal.coe_mul, ← EReal.coe_mul]
  congr 1
  ring

end Cert.Agreement

end
-- ==== Proof.Layout.lean ====
/-
  Three layout operations read at an index given by coordinates: a vector turned into a column, a
  column spread across a row of copies, and a one-element matrix read as a scalar. Each result
  element is one operand element; the lemmas say which.
-/
import Idealize.ShloMosaic.Lib.ValueLayout

namespace Cert.Layout

open Idealize.ShloMosaic Idealize.ShloMosaic.ValueIdx

variable {α : Type}

/-- An `[a]` array cast to the column `[a, 1]` reads, at `(i, u)`, the operand at `i`: with one
    column the row-major position of `(i, u)` is `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array cast to a scalar reads its one entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) :=
  shapeCast_apply x h _ _ (by
    rw [Shape.rowMajor_val_two]
    show 0 * 1 + 0 = (Shape.rowMajorPi _ j).val
    rw [Shape.rowMajorPi_zero])

end Cert.Layout
-- ==== Proof.KernelBlocks.lean ====
/-
  Which entries of the two inputs a grid point reads.

  Both inputs are flattened to length 8192 before the grid runs, and each flattened vector is laid out
  twice: as a column `8192 × 1`, cut into 64 blocks of 128 rows, and as a row `1 × 8192`, one block.
  Grid point `t` reads column block `t` of each input — entries `128 t + r`, `r < 128` — and the
  whole row of each — entries `j < 8192`.
-/
import proofs.«123541_j81123342287264_1_alg».proof.Proof.Gen.KernelIdeal.Frame
import proofs.«123541_j81123342287264_1_alg».proof.Proof.Agreement
import proofs.«123541_j81123342287264_1_alg».proof.Proof.Layout
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The first input flattened to length 8192, entry `k`. -/
def flatP (c : Dev nD) : Fin 8192 → EReal :=
  fun k => shapeCast S8192 (m ((c : Thread nD τ).loc main_arg0)) shapeCasts_S4x64x32_S8192 (ix1 k)

/-- The second input flattened to length 8192, entry `k`. -/
def flatQ (c : Dev nD) : Fin 8192 → EReal :=
  fun k => shapeCast S8192 (m ((c : Thread nD τ).loc main_arg1)) shapeCasts_S4x64x32_S8192 (ix1 k)

/-! ## The four arrays the region finds: each input flattened, as a column and as a row -/

theorem V_colP (c : Dev nD) : (V m c main_v2 : S8192x1.Idx → EReal)
    = shapeCast S8192x1 (shapeCast S8192 (m ((c : Thread nD τ).loc main_arg0)) shapeCasts_S4x64x32_S8192) shapeCasts_S8192_S8192x1 := by
  show StableHlo.after hostOps0 (fun b => m (c, b)) (Proc.devRef .tc main_v2) = _
  after_results; rfl

theorem V_colQ (c : Dev nD) : (V m c main_v3 : S8192x1.Idx → EReal)
    = shapeCast S8192x1 (shapeCast S8192 (m ((c : Thread nD τ).loc main_arg1)) shapeCasts_S4x64x32_S8192) shapeCasts_S8192_S8192x1 := by
  show StableHlo.after hostOps0 (fun b => m (c, b)) (Proc.devRef .tc main_v3) = _
  after_results; rfl

theorem V_rowP (c : Dev nD) : (V m c main_v4 : S1x8192.Idx → EReal)
    = shapeCast S1x8192 (shapeCast S8192 (m ((c : Thread nD τ).loc main_arg0)) shapeCasts_S4x64x32_S8192) shapeCasts_S8192_S1x8192 := by
  show StableHlo.after hostOps0 (fun b => m (c, b)) (Proc.devRef .tc main_v4) = _
  after_results; rfl

theorem V_rowQ (c : Dev nD) : (V m c main_v5 : S1x8192.Idx → EReal)
    = shapeCast S1x8192 (shapeCast S8192 (m ((c : Thread nD τ).loc main_arg1)) shapeCasts_S4x64x32_S8192) shapeCasts_S8192_S1x8192 := by
  show StableHlo.after hostOps0 (fun b => m (c, b)) (Proc.devRef .tc main_v5) = _
  after_results; rfl

/-! ## The blocks a grid point reads -/

/-- Point `t`'s column block of the first input: rows `128 t .. 128 t + 127`. -/
abbrev colP (c : Dev nD) (t : Fin cfg0.N) : Vec Ideal S128x1 .f32 := iblk m c 0 t
/-- Point `t`'s column block of the second input. -/
abbrev colQ (c : Dev nD) (t : Fin cfg0.N) : Vec Ideal S128x1 .f32 := iblk m c 1 t
/-- The whole first input as a row (the same block at every point). -/
abbrev rowP (c : Dev nD) (t : Fin cfg0.N) : Vec Ideal S1x8192 .f32 := iblk m c 2 t
/-- The whole second input as a row. -/
abbrev rowQ (c : Dev nD) (t : Fin cfg0.N) : Vec Ideal S1x8192 .f32 := iblk m c 3 t

/-- The column windows' block index at point `t` is `(t, 0)`; the row windows' is `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

theorem colP_apply (c : Dev nD) (t : Fin cfg0.N) (r : Fin 128) :
    colP m c t (ix2 r (0 : Fin 1)) = flatP m c (Cert.Agreement.rowOf t.val r) := by
  have hN : cfg0.N = 64 := N_0
  have ht := t.isLt
  unfold colP iblk
  rw [View.read_apply]
  show V m c main_v2 _ = _
  rw [V_colP]
  unfold flatP
  refine (congrArg _ (?_ : _ = ix2 (Cert.Agreement.rowOf t.val r) (0 : Fin 1))).trans
    (Cert.Layout.shapeCast_a_a1_apply _ _ _ _)
  funext a
  apply Fin.ext
  match a with
  | ⟨0, _⟩ =>
    show win0_0.index t 0 * 128 + 1 * r.val = (128 * t.val + r.val) % 8192
    rw [(idx_facts t).1]; omega
  | ⟨1, _⟩ =>
    show win0_0.index t 1 * 1 + 1 * 0 = 0
    rw [(idx_facts t).2.1]

theorem colQ_apply (c : Dev nD) (t : Fin cfg0.N) (r : Fin 128) :
    colQ m c t (ix2 r (0 : Fin 1)) = flatQ m c (Cert.Agreement.rowOf t.val r) := by
  have hN : cfg0.N = 64 := N_0
  have ht := t.isLt
  unfold colQ iblk
  rw [View.read_apply]
  show V m c main_v3 _ = _
  rw [V_colQ]
  unfold flatQ
  refine (congrArg _ (?_ : _ = ix2 (Cert.Agreement.rowOf t.val r) (0 : Fin 1))).trans
    (Cert.Layout.shapeCast_a_a1_apply _ _ _ _)
  funext a
  apply Fin.ext
  match a with
  | ⟨0, _⟩ =>
    show win0_1.index t 0 * 128 + 1 * r.val = (128 * t.val + r.val) % 8192
    rw [(idx_facts t).2.2.1]; omega
  | ⟨1, _⟩ =>
    show win0_1.index t 1 * 1 + 1 * 0 = 0
    rw [(idx_facts t).2.2.2.1]

theorem rowP_apply (c : Dev nD) (t : Fin cfg0.N) (j : Fin 8192) :
    rowP m c t (ix2 (0 : Fin 1) j) = flatP m c j := by
  unfold rowP iblk
  rw [View.read_apply]
  show V m c main_v4 _ = _
  rw [V_rowP]
  unfold flatP
  refine (congrArg _ (?_ : _ = ix2 (0 : Fin 1) j)).trans (shapeCast_a_1a_apply _ _ _ _)
  funext a
  apply Fin.ext
  match a with
  | ⟨0, _⟩ =>
    show win0_2.index t 0 * 1 + 1 * 0 = 0
    rw [(idx_facts t).2.2.2.2.1]
  | ⟨1, _⟩ =>
    show win0_2.index t 1 * 8192 + 1 * j.val = j.val
    rw [(idx_facts t).2.2.2.2.2.1]; omega

theorem rowQ_apply (c : Dev nD) (t : Fin cfg0.N) (j : Fin 8192) :
    rowQ m c t (ix2 (0 : Fin 1) j) = flatQ m c j := by
  unfold rowQ iblk
  rw [View.read_apply]
  show V m c main_v5 _ = _
  rw [V_rowQ]
  unfold flatQ
  refine (congrArg _ (?_ : _ = ix2 (0 : Fin 1) j)).trans (shapeCast_a_1a_apply _ _ _ _)
  funext a
  apply Fin.ext
  match a with
  | ⟨0, _⟩ =>
    show win0_3.index t 0 * 1 + 1 * 0 = 0
    rw [(idx_facts t).2.2.2.2.2.2.1]
  | ⟨1, _⟩ =>
    show win0_3.index t 1 * 8192 + 1 * j.val = j.val
    rw [(idx_facts t).2.2.2.2.2.2.2]; omega

end Cert.KernelIdeal.Blocks

end
-- ==== Proof.KernelCases.lean ====
/-
  What one grid point leaves in the accumulator cell, in each of the body's two cases.

  The body keeps a `1 × 1` running total. At the first point it stores `0` there, reads that back
  and stores `0 + (this block's sum)`; at every later point it reads what the point before left
  and stores that plus this block's sum. In both cases the cell ends at the body's one arithmetic
  term — the sum of the block's agreements added to the cell's previous content — evaluated at the
  point's four input blocks and at `0` (first point) or at the carried total (later points).
-/
import proofs.«123541_j81123342287264_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F] [Named F]

theorem hz : (![0, 0] : Fin 2 → Nat) = fun _ => 0 := funext fun a => by fin_cases a <;> rfl

/-- A LATER POINT: over a cell holding `xo`, the body leaves its arithmetic term at the column
    blocks `x0`, `x1`, the row vectors `x2`, `x3` and `xo`. -/
theorem out_later (c : Dev nD) (i : grid0.Coords) (a1 : Memref sig .tc .vmem S128x1 .f32) (h1 : a1.IsWhole)
    (a2 : Memref sig .tc .vmem S128x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (hc : ¬cond0_0 i) (x0 x1 : Vec F S128x1 .f32) (x2 x3 : Vec F S1x8192 .f32) (xo : Vec F S1x1 .f32) :
    out0_B_4 c i a1 h1 a2 h2 a3 h3 a4 h4 a5 h5 hc x0 x1 x2 x3 xo = k0_pay2 x2 x0 x3 x1 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S128x1) hz, View.ld_unit_zero (S := S1x8192) hz, View.ld_unit_zero (S := S1x1) hz]

/-- THE FIRST POINT: the body stores the zero cell, reads it back, and leaves its arithmetic term at
    the point's blocks and that zero cell. -/
theorem out_first (c : Dev nD) (i : grid0.Coords) (a1 : Memref sig .tc .vmem S128x1 .f32) (h1 : a1.IsWhole)
    (a2 : Memref sig .tc .vmem S128x1 .f32) (h2 : a2.IsWhole) (a3 : Memref sig .tc .vmem S1x8192 .f32) (h3 : a3.IsWhole)
    (a4 : Memref sig .tc .vmem S1x8192 .f32) (h4 : a4.IsWhole) (a5 : Memref sig .tc .vmem S1x1 .f32) (h5 : a5.IsWhole)
    (hc : cond0_0 i) (x0 x1 : Vec F S128x1 .f32) (x2 x3 : Vec F S1x8192 .f32) :
    out0_A_4 c i a1 h1 a2 h2 a3 h3 a4 h4 a5 h5 hc x0 x1 x2 x3 = k0_pay2 x2 x0 x3 x1 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S128x1) hz, View.ld_unit_zero (S := S1x8192) hz, View.ld_unit_zero (S := S1x1) hz]

end Cert.KernelIdeal.Cases

end
-- ==== Proof.KernelPayload.lean ====
import proofs.«123541_j81123342287264_1_alg».proof.Proof.Gen.KernelIdeal.Skeleton
import proofs.«123541_j81123342287264_1_alg».proof.Proof.Layout
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- One difference tile: a row vector minus a column, each spread over the `128 × 8192` tile, reads
    at `(r, j)` the row's entry `j` minus the column's entry `r`. -/
theorem diff_apply (row : FVec Ideal S1x8192 .f32) (col : FVec Ideal S128x1 .f32)
    (h1 : S1x8192.ShapeCasts S1x8192) (h2 : S128x1.ShapeCasts S128x1)
    (b1 : S1x8192.Broadcasts S128x8192) (b2 : S128x1.Broadcasts S128x8192) (r : Fin 128) (j : Fin 8192) :
    subf (broadcastTo S128x8192 (shapeCast S1x8192 row h1) b1) (broadcastTo S128x8192 (shapeCast S128x1 col h2) b2) (ix2 r j)
      = row (ix2 (0 : Fin 1) j) - col (ix2 r (0 : Fin 1)) := by
  rw [shapeCast_self, shapeCast_self, subf_apply, broadcastTo_1b_ab_apply, Cert.Layout.broadcastTo_a1_ab_apply]

/-- ONE ENTRY of the agreement tile: at row `r` of the block and column `j`, the tanh of the product
    of the two differences, times the scale `c`. -/
theorem tile_apply (row₁ row₂ : FVec Ideal S1x8192 .f32) (col₁ col₂ : FVec Ideal S128x1 .f32)
    (h1 : S1x8192.ShapeCasts S1x8192) (h2 : S128x1.ShapeCasts S128x1)
    (b1 : S1x8192.Broadcasts S128x8192) (b2 : S128x1.Broadcasts S128x8192) (c : Ideal .f32) (r : Fin 128) (j : Fin 8192) :
    tanh (mulf (mulf (subf (broadcastTo S128x8192 (shapeCast S1x8192 row₁ h1) b1) (broadcastTo S128x8192 (shapeCast S128x1 col₁ h2) b2))
                     (subf (broadcastTo S128x8192 (shapeCast S1x8192 row₂ h1) b1) (broadcastTo S128x8192 (shapeCast S128x1 col₂ h2) b2)))
               (broadcast S128x8192 c)) (ix2 r j)
      = Ideal.tanh ((row₁ (ix2 (0 : Fin 1) j) - col₁ (ix2 r (0 : Fin 1))) * (row₂ (ix2 (0 : Fin 1) j) - col₂ (ix2 r (0 : Fin 1))) * c) := by
  have ht : ∀ (v : FVec Ideal S128x8192 .f32) (i : S128x8192.Idx), tanh v i = Ideal.tanh (v i) := fun _ _ => rfl
  rw [ht, mulf_apply, mulf_apply, broadcast_apply, diff_apply, diff_apply]

/-- The lane sum of a `128 × 8192` tile along its columns reads, at row `r`, the sum of that row. -/
theorem rowsum_apply (T : FVec Ideal S128x8192 .f32) (hφ : FKind.Formats .f32)
    (hacc : (0x00000000#32 : BitVec 32) = FKind.add.neutral .f32 hφ) (r : Fin 128) :
    multiReduction .add [1] S128 T 0x00000000#32 reduces_S128x8192_S128 hφ hacc (ix1 r) = ∑ j : Fin 8192, T (ix2 r j) :=
  (Ideal.multiReduction_add_single T 0x00000000#32 reduces_S128x8192_S128 hφ hacc (ix1 r)).trans
    (Finset.sum_congr rfl fun j _ => congrArg T (funext fun a => match a with
      | ⟨0, _⟩ => Fin.ext rfl
      | ⟨1, _⟩ => Fin.ext rfl))

/-- The sum down the one column of a length-128 vector turned into a column is the sum of the vector. -/
theorem colsum_apply (R : FVec Ideal S128 .f32) (hφ : FKind.Formats .f32)
    (hacc : (0x00000000#32 : BitVec 32) = FKind.add.neutral .f32 hφ) (w : Fin 1) :
    multiReduction .add [0] S1 (shapeCast S128x1 R shapeCasts_S128_S128x1) 0x00000000#32 reduces_S128x1_S1 hφ hacc (ix1 w)
      = ∑ r : Fin 128, R (ix1 r) := by
  refine (Ideal.multiReduction_add_single (shapeCast S128x1 R shapeCasts_S128_S128x1) 0x00000000#32 reduces_S128x1_S1 hφ hacc (ix1 w)).trans ?_
  refine Finset.sum_congr rfl fun r _ => ?_
  have hl : reduces_S128x1_S1.lift (ix1 w) r = ix2 r (0 : Fin 1) :=
    funext fun a => match a with
      | ⟨0, _⟩ => Fin.ext rfl
      | ⟨1, _⟩ => Fin.ext (by have := w.isLt; show w.val = 0; omega)
  exact (congrArg (shapeCast S128x1 R shapeCasts_S128_S128x1) hl).trans
    (Cert.Layout.shapeCast_a_a1_apply (a := 128) R shapeCasts_S128_S128x1 r (0 : Fin 1))

/-- THE BODY'S ARITHMETIC AT THE CELL. With the row vectors `v3`, `v10` (all 8192 entries of the
    two inputs), the column blocks `v5`, `v12` (this block's 128 entries of each) and the cell's
    previous content `v25`, the stored cell is the previous content plus the sum over the block's
    rows `r` and all columns `j` of the agreement of the pair (row `r` of the block, `j`), at the
    named scale. -/
theorem pay2_apply (v3 v10 : Vec Ideal S1x8192 .f32) (v5 v12 : Vec Ideal S128x1 .f32) (v25 : Vec Ideal S1x1 .f32)
    (u w : Fin 1) :
    k0_pay2 (F := Ideal) v3 v5 v10 v12 v25 (ix2 u w)
      = v25 (ix2 u w) + ∑ r : Fin 128, ∑ j : Fin 8192,
          Ideal.tanh ((v3 (ix2 (0 : Fin 1) j) - v5 (ix2 r (0 : Fin 1))) * (v10 (ix2 (0 : Fin 1) j) - v12 (ix2 r (0 : Fin 1)))
            * Named.named (F := Ideal) κ "inv_temp" (φ := .f32) 0x41200000#32) := by
  unfold k0_pay2
  rw [addf_apply, shapeCast_self, shapeCast_a_1a_apply]
  congr 1
  refine (colsum_apply _ _ _ w).trans ?_
  refine Finset.sum_congr rfl fun r _ => ?_
  refine (rowsum_apply _ _ _ r).trans ?_
  refine Finset.sum_congr rfl fun j _ => ?_
  exact tile_apply v3 v10 v5 v12 _ _ _ _ _ r j

/-- The zero cell the first point stores holds `0`. -/
theorem pay1_apply (y : S1x1.Idx) : k0_pay1 (F := Ideal) y = 0 := by
  unfold k0_pay1
  rw [broadcast_apply]
  exact Ideal.ofBits_zero_f32

end Cert.KernelIdeal.Payload

end
-- ==== Proof.Consts.lean ====
/-
  The float words the two programs spell, as the extended reals they denote.

  The reference divides each pair product by the word of `0.1`, which is the dyadic
  `13421773 / 134217728` (not the decimal `1/10`); the kernel divides the total by `8192 · 8191`
  and the reference by half of that, `8192 · 8191 / 2`, both integers below `2^26` with at most 13
  significant bits, so their words denote them exactly; the mask of ordered pairs holds `1`.
-/
import Idealize.ShloMosaic.PureOps.Ideal

noncomputable section

namespace Cert.Consts

open Idealize.ShloMosaic

/-- The reference's temperature word `0x3DCCCCCD` denotes `13421773 / 2^27`. -/
theorem ofBits_temp : Ideal.ofBits .f32 0x3DCCCCCD#32 = ((13421773 / 134217728 : ℝ) : EReal) := by
  simp [Ideal.ofBits, Ideal.ieee, -EReal.coe_mul]; norm_num

/-- The kernel's divisor `0x4C7FF800` denotes `8192 · 8191 = 67100672`. -/
theorem ofBits_pairs2 : Ideal.ofBits .f32 0x4C7FF800#32 = ((67100672 : ℝ) : EReal) := by
  simp [Ideal.ofBits, Ideal.ieee, -EReal.coe_mul]; norm_num

/-- The reference's divisor `0x4BFFF800` denotes `8192 · 8191 / 2 = 33550336`. -/
theorem ofBits_pairs : Ideal.ofBits .f32 0x4BFFF800#32 = ((33550336 : ℝ) : EReal) := by
  simp [Ideal.ofBits, Ideal.ieee, -EReal.coe_mul]; norm_num

/-- `1.0`, the mask's value on an ordered pair, denotes `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = ((0 : ℝ) : EReal) := by
  simp [Ideal.ofBits, Ideal.ieee]

end Cert.Consts

end
-- ==== Proof.KernelTotal.lean ====
/-
  What the kernel's program computes.

  The grid keeps one `1 × 1` cell. The first point resets it to `0` and adds its block's sum; every
  later point adds its own block's sum to what the point before left; after the last point the cell is
  written back. So the grid's result is the 64 block sums added one after another onto `0`, each block
  sum the agreements of the block's 128 rows against all 8192 columns at the named scale. The program
  then reads the cell as a scalar and divides it by `8192 · 8191`.
-/
import proofs.«123541_j81123342287264_1_alg».proof.Proof.KernelBlocks
import proofs.«123541_j81123342287264_1_alg».proof.Proof.KernelCases
import proofs.«123541_j81123342287264_1_alg».proof.Proof.KernelPayload
import proofs.«123541_j81123342287264_1_alg».proof.Proof.Consts
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Blocks

variable (m : (ℓ : Loc nD τ sig) → Buf (Elt Ideal) ℓ) (ρ : Dev nD → PrngReg)

/-- The scale the body multiplies each pair product by: the named constant, read at the ideal values. -/
abbrev scale : EReal := Named.named (F := Ideal) κ "inv_temp" (φ := .f32) 0x41200000#32

/-- THE RUNNING TOTAL. After grid point `n` the accumulator cell holds the block sums of blocks
    `0 .. n`, added one after another onto `0`: by induction on the point, the first point resetting
    the cell and every later one adding its block to what the point before left. -/
theorem cell_eq (c : Dev nD) : ∀ (n : ℕ) (h : n < cfg0.N),
    outsAt0 m c n h = fun _ => Cert.Agreement.chainE scale (flatP m c) (flatQ m c) n
  | 0, h => by
    rw [outsAt0_A m c ⟨0, h⟩ rfl, Cert.KernelIdeal.Cases.out_first]
    funext y
    obtain ⟨u, w, rfl⟩ : ∃ (u w : Fin 1), y = ix2 u w := ⟨y 0, y 1, eq_ix2 y⟩
    refine (Cert.KernelIdeal.Payload.pay2_apply (rowP m c ⟨0, h⟩) (rowQ m c ⟨0, h⟩) (colP m c ⟨0, h⟩) (colQ m c ⟨0, h⟩)
      (k0_pay1 (F := Ideal)) u w).trans ?_
    rw [Cert.KernelIdeal.Payload.pay1_apply]
    simp only [rowP_apply, colP_apply, rowQ_apply, colQ_apply]
    rfl
  | n + 1, h => by
    have hN : cfg0.N = 64 := N_0
    have hB : ¬(⟨n + 1, h⟩ : Fin cfg0.N).val % 64 = 0 := by dsimp only; omega
    rw [outsAt0_B m c ⟨n + 1, h⟩ hB, Cert.KernelIdeal.Cases.out_later]
    show k0_pay2 _ _ _ _ (outsAt0 m c n _) = _
    rw [cell_eq c n]
    funext y
    obtain ⟨u, w, rfl⟩ : ∃ (u w : Fin 1), y = ix2 u w := ⟨y 0, y 1, eq_ix2 y⟩
    refine (Cert.KernelIdeal.Payload.pay2_apply (rowP m c ⟨n + 1, h⟩) (rowQ m c ⟨n + 1, h⟩) (colP m c ⟨n + 1, h⟩) (colQ m c ⟨n + 1, h⟩)
      _ u w).trans ?_
    simp only [rowP_apply, colP_apply, rowQ_apply, colQ_apply]
    rfl

/-! ## The one write-back, and the array it leaves -/

/-- The last grid point, the only one after which the cell is written back. -/
abbrev lastPt : Fin cfg0.N := ⟨63, by rw [show cfg0.N = 64 from N_0]; decide⟩

/-- The total over all 64 blocks. -/
abbrev total (c : Dev nD) : EReal := Cert.Agreement.chainE scale (flatP m c) (flatQ m c) 63

/-- The `1 × 1` result array of the grid: its one entry the total. -/
abbrev cellArr (c : Dev nD) : Buf (Elt Ideal) ((c : Thread nD τ).loc main_v6) := fun _ => total m c

/-- The write-back after the last point writes the total: the block `(0, 0)` of the `1 × 1` array is
    the array. -/
theorem flushed_eq (c : Dev nD) (t : Fin cfg0.N) (hf : (cfg0.win 4).flush t = true) :
    (dats m 0 c).flushed 4 t = ((cfg0.win 4).blk t).view.read (Elt Ideal) (cellArr m c) := by
  have hN : cfg0.N = 64 := N_0
  have h63 : t.val = 63 := by have := (flush0_4 t).mp hf; have := t.isLt; omega
  obtain rfl : t = lastPt := Fin.ext h63
  show (cfg0.win 4).cut (grid0.coords lastPt) ((dats m 0 c).after 4 lastPt) = _
  rw [after0_4, cell_eq]
  have hz' : (fun a => win0_4.index lastPt a * main_v6.ty.shape.size a) = fun _ => 0 :=
    funext fun a => by fin_cases a <;> decide
  exact (Memref.read_access_unit_zero (Elt Ideal) main_v6 hz' (fun a => by rw [congrFun hz' a]; simp) (cellArr m c)).symm

/-- So the grid's result array ends holding the total. -/
theorem final_cell (c : Dev nD) : (dats m 0 c).arrAt 4 cfg0.N = cellArr m c :=
  (dats m 0 c).arrAt_eq_of_cover 4 (cellArr m c) (flushed_eq m c) fun i =>
    ⟨lastPt, (flush0_4 lastPt).mpr rfl, by
      show i ∈ ((View.whole main_v6).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-! ## After the grid: the scalar read and the division -/

/-- The program's result: the total divided by `8192 · 8191`. -/
abbrev result (c : Dev nD) : Buf (Elt Ideal) ((c : Thread nD τ).loc main_v8) :=
  fun _ => Ideal.div (total m c) ((67100672 : ℝ) : EReal)

/-- The host operations after the grid, applied to the grid's result array: the cell read as a
    scalar and divided by the word of `67100672`. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.tc.devRef main_v6) = cellArr m c :=
    (Pipeline.withArrays_arr spec0 launch0.win.arr_inj c _ _ 4).trans (final_cell m c)
  rw [hw]
  funext x
  show Ideal.div (total m c) (Ideal.ofBits .f32 0x4C7FF800#32) = _
  rw [Cert.Consts.ofBits_pairs2]

/-- THE RUN, READ: every weakly fair execution terminates with the result buffer at the total divided
    by `8192 · 8191` and both inputs unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Total

end
-- ==== Proof.RefValue.lean ====
/-
  What the reference computes, read entry by entry.

  The reference flattens both inputs to length 8192, forms the `8192 × 8192` array whose entry
  `(i, j)` is `tanh (((p j - p i) · (q j - q i)) / T)` with `T` the word of `0.1`, multiplies it by
  the mask that is `0` where `i ≥ j` and `1` where `i < j` (the strict upper triangle, built from
  two index grids and a signed comparison of words below `2^13`), sums everything onto `0` and
  divides by the number of pairs. Dividing by the real `T ≠ 0` is multiplying by `1 / T`, so each
  entry is the agreement of the pair at scale `1 / T` times the indicator of `i < j`.
-/
import proofs.«123541_j81123342287264_1_alg».proof.Proof.Gen.ReferenceIdeal.Read
import proofs.«123541_j81123342287264_1_alg».proof.Proof.Agreement
import proofs.«123541_j81123342287264_1_alg».proof.Proof.Consts
import Idealize.ShloMosaic.Lib.StableHlo.Predicate
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

/-- The triangle mask at `(a, b)`: the signed comparison `a + 0 ≥ b` of two words below `2^13` is
    the comparison of the numbers, so the select picks `X` where `a ≥ b` and `Y` where `a < b`. -/
theorem mask_eq (a b : Fin 8192) (X Y : EReal) :
    Scalar.select (IntOp.cmpi .sge (IntOp.addi (BitVec.ofNat 32 a.val) 0#32) (BitVec.ofNat 32 b.val)) X Y
      = if a < b then Y else X := by
  have ha : (IntOp.addi (BitVec.ofNat 32 a.val) 0#32).toNat = a.val := by
    unfold IntOp.addi
    rw [BitVec.add_zero, BitVec.toNat_ofNat]
    have := a.isLt; omega
  have hb : (BitVec.ofNat 32 b.val).toNat = b.val := by
    rw [BitVec.toNat_ofNat]; have := b.isLt; omega
  have ha' : (IntOp.addi (BitVec.ofNat 32 a.val) 0#32).toNat < 2 ^ 31 := by rw [ha]; have := a.isLt; omega
  have hb' : (BitVec.ofNat 32 b.val).toNat < 2 ^ 31 := by rw [hb]; have := b.isLt; omega
  by_cases h : a < b
  · have hn : ¬ IntOp.cmpi .sge (IntOp.addi (BitVec.ofNat 32 a.val) 0#32) (BitVec.ofNat 32 b.val) = 1#1 := fun hc => by
      have h1 := (StableHlo.Predicate.sge_iff_toNat ha' hb').mp hc
      rw [ha, hb] at h1
      have h2 : a.val < b.val := h
      omega
    rw [eq_zero_of_ne_one hn, select_zero, if_pos h]
  · have hy : IntOp.cmpi .sge (IntOp.addi (BitVec.ofNat 32 a.val) 0#32) (BitVec.ofNat 32 b.val) = 1#1 :=
      (StableHlo.Predicate.sge_iff_toNat ha' hb').mpr (by
        rw [ha, hb]
        have h2 : ¬ a.val < b.val := h
        omega)
    rw [hy, select_one, if_neg h]

/-- The scale the reference's division by the temperature word amounts to. -/
abbrev invTemp : ℝ := 1 / (13421773 / 134217728)

/-- ONE ENTRY of the masked agreement array: the agreement of `(a, b)` of the flattened inputs at
    scale `1 / T`, times the indicator of `a < b`. -/
theorem entry (x0 x1 : (⟨S4x64x32, .f32⟩ : BufTy).Contents (Elt Ideal)) (a b : Fin 8192) :
    val_main_v18 (F := Ideal) x0 x1 (ix2 a b)
      = Cert.Agreement.agree ((invTemp : ℝ) : EReal) (fun k => val_main_v0 (F := Ideal) x0 (ix1 k))
          (fun k => val_main_v1 (F := Ideal) x1 (ix1 k)) a b
        * (if a < b then ((1 : ℝ) : EReal) else ((0 : ℝ) : EReal)) := by
  have e1 : idx_main_v2 (idx_main_v4 (ix2 a b)) = ix1 b := funext fun d => match d with | ⟨0, _⟩ => rfl
  have e2 : idx_main_v3 (idx_main_v5 (ix2 a b)) = ix1 a := funext fun d => match d with | ⟨0, _⟩ => rfl
  have e3 : idx_main_v7 (idx_main_v9 (ix2 a b)) = ix1 b := funext fun d => match d with | ⟨0, _⟩ => rfl
  have e4 : idx_main_v8 (idx_main_v10 (ix2 a b)) = ix1 a := funext fun d => match d with | ⟨0, _⟩ => rfl
  rw [val_main_v18_apply, val_main_v15_apply, val_main_v14_apply, val_main_v12_apply, val_main_v6_apply,
    val_main_v11_apply, val_main_v4_apply, val_main_v5_apply, val_main_v9_apply, val_main_v10_apply,
    val_main_v2_apply, val_main_v3_apply, val_main_v7_apply, val_main_v8_apply, val_main_v13_apply,
    val_main_cst_apply, val_main_v17_apply, val_main_call0_v4_apply, val_main_call0_v2_apply,
    val_main_call0_v0_apply, val_main_call0_v1_apply, val_main_call0_c_apply, val_main_call0_v3_apply,
    val_main_call0_v5_apply, val_main_call0_cst_apply, val_main_v16_apply, val_main_cst_0_apply,
    e1, e2, e3, e4]
  simp only [Ideal.subf_def, Ideal.mulf_def, Ideal.hostDivf_def, Ideal.hostUnary_tanh_def, Ideal.ofBits_def,
    Cert.Consts.ofBits_temp, Cert.Consts.ofBits_one, Cert.Consts.ofBits_zero]
  rw [Ideal.div_coe (by norm_num : (13421773 / 134217728 : ℝ) ≠ 0)]
  show _ * Scalar.select (IntOp.cmpi .sge (IntOp.addi (BitVec.ofNat 32 a.val) 0#32) (BitVec.ofNat 32 b.val)) _ _ = _
  rw [mask_eq]
  rfl

/-- THE REFERENCE'S RESULT: `0` plus the sum over all index pairs of the masked agreement, divided
    by the number of pairs `8192 · 8191 / 2`. -/
theorem result_eq (x0 x1 : (⟨S4x64x32, .f32⟩ : BufTy).Contents (Elt Ideal)) (i : S_.Idx) :
    val_main_v20 (F := Ideal) x0 x1 i
      = Ideal.div (0 + Cert.Agreement.upperE ((invTemp : ℝ) : EReal) (fun k => val_main_v0 (F := Ideal) x0 (ix1 k))
          (fun k => val_main_v1 (F := Ideal) x1 (ix1 k))) ((33550336 : ℝ) : EReal) := by
  rw [val_main_v20_apply, val_main_v19_apply, val_main_cst_1_apply, val_main_cst_2_apply]
  simp only [Ideal.hostDivf_def, Ideal.ofBits_def, Cert.Consts.ofBits_pairs, Ideal.ofBits_zero_f32]
  unfold Cert.Agreement.upperE
  congr 2
  refine Finset.sum_congr rfl fun j _ => ?_
  obtain ⟨a, b, rfl⟩ : ∃ (a b : Fin 8192), j = ix2 a b := ⟨j 0, j 1, eq_ix2 j⟩
  exact entry x0 x1 a b

end Cert.ReferenceIdeal.RefValue

end
-- ==== Proof.Finite.lean ====
/-
  From the precondition to real numbers.

  The precondition says, of each input, that every entry's absolute value is below `+∞`, the two
  statements joined by "and". An extended real whose absolute value `max x (-x)` is below `⊤` is
  neither `⊤` nor `⊥`, so it is a real number: under the precondition every entry of both inputs is
  the coercion of a real.
-/
import proofs.«123541_j81123342287264_1_alg».proof.Pre_finite_inputs
import Idealize.ShloMosaic.Lib.ReduceAll
import Idealize.ShloMosaic.Lib.Affine
import Idealize.ShloMosaic.Lib.StableHlo.Predicate
import Idealize.ShloMosaic.PureOps.Ideal.Laws
import Idealize.ShloMosaic.Lib.ValueIdx

noncomputable section

open Idealize.ShloMosaic Idealize.ShloMosaic.ValueIdx

namespace Cert.Finite

open Cert.Pre_finite_inputs

variable [Cert.Pre_finite_inputs.Facts]

instance : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : FloatOps.cmpf (F := Ideal) (φ := .f32) .olt (FloatOps.absf x) (FloatOps.ofBits .f32 0x7F800000#32) = 1#1) :
    ∃ r : ℝ, x = (r : EReal) := by
  rw [Ideal.cmpf_def, Ideal.absf_def, Ideal.ofBits_def, ofBits_inf] at h
  have h' : BitVec.ofBool (decide (max x (-x) < (⊤ : EReal))) = 1#1 := h
  have hlt : max x (-x) < ⊤ := of_decide_eq_true ((StableHlo.Predicate.ofBool_eq_one_iff _).mp h')
  induction x using EReal.rec with
  | bot => exact absurd hlt (by simp)
  | coe r => exact ⟨r, rfl⟩
  | top => exact absurd hlt (by simp)

/-- Under the precondition every entry of both inputs is a real number. -/
theorem reals_of_pre (x0 x1 : FVec Ideal S4x64x32 .f32) (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.mp h0
  constructor
  · intro i
    exact real_of_abs_lt_inf (x0 i) (Host.reduce_andi_all _ _ _ _ ix0 ha i)
  · intro i
    exact real_of_abs_lt_inf (x1 i) (Host.reduce_andi_all _ _ _ _ ix0 hb i)

end Cert.Finite

end
-- ==== Proof.Bridge.lean ====
/-
  The two results are one number.

  Take two arrays of shape `4 × 64 × 32` whose entries are all real numbers, flattened to length 8192,
  and one real scale `κ`, reached by two spellings `c` and `c'`. Then the 64 block sums of the pair
  agreements, added one after another onto `0` and divided by `8192 · 8191`, equal `0` plus the sum
  over the pairs `i < j` divided by `8192 · 8191 / 2`: with real entries every sum is a sum of reals,
  the agreement is symmetric with a zero diagonal, so all pairs count twice the pairs `i < j`.
-/
import proofs.«123541_j81123342287264_1_alg».proof.Proof.Agreement
import Idealize.ShloMosaic.Lib.ValueIdx

noncomputable section

open Idealize.ShloMosaic Idealize.ShloMosaic.ValueIdx

namespace Cert.Bridge

theorem total_eq_upper (x0 x1 : (⟨3, ![4, 64, 32]⟩ : Shape).Idx → EReal)
    (hA : (⟨3, ![4, 64, 32]⟩ : Shape).ShapeCasts ⟨1, ![8192]⟩)
    (h0 : ∀ i, ∃ r : ℝ, x0 i = (r : EReal)) (h1 : ∀ i, ∃ r : ℝ, x1 i = (r : EReal))
    (c c' : EReal) (κ : ℝ) (hc : c = (κ : EReal)) (hc' : c' = (κ : EReal)) :
    Ideal.div (Cert.Agreement.chainE c (fun k => shapeCast ⟨1, ![8192]⟩ x0 hA (ix1 k))
        (fun k => shapeCast ⟨1, ![8192]⟩ x1 hA (ix1 k)) 63) ((67100672 : ℝ) : EReal)
      = Ideal.div (0 + Cert.Agreement.upperE c' (fun k => shapeCast ⟨1, ![8192]⟩ x0 hA (ix1 k))
        (fun k => shapeCast ⟨1, ![8192]⟩ x1 hA (ix1 k))) ((33550336 : ℝ) : EReal) := by
  choose f0 hf0 using h0
  choose f1 hf1 using h1
  obtain rfl : x0 = fun i => ((f0 i : ℝ) : EReal) := funext hf0
  obtain rfl : x1 = fun i => ((f1 i : ℝ) : EReal) := funext hf1
  subst hc hc'
  exact Cert.Agreement.total_div_eq_upper_div κ (fun k => shapeCast ⟨1, ![8192]⟩ f0 hA (ix1 k))
    (fun k => shapeCast ⟨1, ![8192]⟩ f1 hA (ix1 k))

end Cert.Bridge

end
-- ==== Proof.lean ====
/-
  A differentiable Kendall tau of two f32[4, 64, 32] arrays, computed two ways.

  Flatten both inputs to vectors `p`, `q` of length `n = 8192`. The agreement of the pair `(i, j)`
  is `tanh ((p j - p i) · (q j - q i) / T)` with temperature `T = 0.1`. The reference sums the
  agreement over the pairs `i < j` (a strict-upper-triangle mask) and divides by the number of pairs,
  `n (n - 1) / 2`. The kernel walks 64 row blocks of 128 rows, adds each block's full row sums into a
  one-cell accumulator, and divides the total over ALL ordered pairs by `n (n - 1)`; it multiplies by
  the reciprocal of the temperature instead of dividing, and that folded constant is named: at the
  ideal values it denotes exactly `1 / T` for `T` the reference's own word of `0.1`.

  Over the extended reals, with finite inputs, every entry is a real number, so every sum is a sum of
  reals in whatever order and grouping. The agreement is symmetric (both differences change sign
  together) and vanishes on the diagonal (`tanh 0 = 0`), so the sum over all ordered pairs is twice the
  sum over `i < j`, and dividing the one by `n (n - 1)` and the other by `n (n - 1) / 2` gives the same
  number. The parts: the law over the reals (Proof/PairSum, Proof/Agreement), the kernel's cell after each
  grid point by induction on the point (Proof/KernelCases, KernelPayload, KernelBlocks, KernelTotal), the
  reference read entry by entry (Proof/RefValue), real entries from the precondition (Proof/Finite), and
  the two results joined (Proof/Bridge).
-/
import proofs.«123541_j81123342287264_1_alg».proof.Defs
import proofs.«123541_j81123342287264_1_alg».proof.Proof.Gen.Kernel
import proofs.«123541_j81123342287264_1_alg».proof.Proof.Gen.Kernel.Skeleton
import proofs.«123541_j81123342287264_1_alg».proof.Proof.Gen.Kernel.Launch
import proofs.«123541_j81123342287264_1_alg».proof.Proof.Gen.Kernel.Points
import proofs.«123541_j81123342287264_1_alg».proof.Proof.Gen.Kernel.Frame
import proofs.«123541_j81123342287264_1_alg».proof.Proof.Gen.KernelIdeal
import proofs.«123541_j81123342287264_1_alg».proof.Proof.Gen.KernelIdeal.Skeleton
import proofs.«123541_j81123342287264_1_alg».proof.Proof.Gen.KernelIdeal.Launch
import proofs.«123541_j81123342287264_1_alg».proof.Proof.Gen.KernelIdeal.Points
import proofs.«123541_j81123342287264_1_alg».proof.Proof.Gen.KernelIdeal.Frame
import proofs.«123541_j81123342287264_1_alg».proof.Proof.Gen.ReferenceIdeal
import proofs.«123541_j81123342287264_1_alg».proof.Proof.Gen.Pre_finite_inputs
import proofs.«123541_j81123342287264_1_alg».proof.Proof.Gen.ReferenceIdeal.Run
import proofs.«123541_j81123342287264_1_alg».proof.Proof.Gen.ReferenceIdeal.Read
import proofs.«123541_j81123342287264_1_alg».proof.Proof.KernelTotal
import proofs.«123541_j81123342287264_1_alg».proof.Proof.RefValue
import proofs.«123541_j81123342287264_1_alg».proof.Proof.Finite
import proofs.«123541_j81123342287264_1_alg».proof.Proof.Bridge
import Idealize.ShloMosaic.Adequacy
import Idealize.ShloMosaic.Init

noncomputable section

namespace Cert.Proof

open Idealize.ShloMosaic Idealize.SL.Sem

/-- The kernel's named scale denotes `134217728 / 13421773`, the reciprocal of the word of `0.1`. -/
theorem scale_eq : Cert.KernelIdeal.Total.scale = ((134217728 / 13421773 : ℝ) : EReal) :=
  IdealRules.named_const.ideal_named_scalar _ _ _ _ rfl

/-- Dividing by the reference's temperature word `13421773 / 134217728` is multiplying by the same
    number. -/
theorem invTemp_eq :
    ((Cert.ReferenceIdeal.RefValue.invTemp : ℝ) : EReal) = ((134217728 / 13421773 : ℝ) : EReal) := by
  unfold Cert.ReferenceIdeal.RefValue.invTemp; norm_num

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the literal `10.0` of the kernel body is named, and the
    table gives the name the value `134217728 / 13421773`. -/
theorem preserves : Cert.preserves_Kernel_KernelIdeal :=
  IdealRules.named_const.statement Cert.KernelIdeal.κ "inv_temp" .f32 0x41200000#32
    ((134217728 / 13421773 : ℝ) : EReal) rfl

/-- At the ideal values the kernel ends at the total over all ordered pairs divided by `n (n - 1)`,
    the reference at `0` plus the sum over `i < j` divided by `n (n - 1) / 2`, of inputs that agree
    and are finite: one number. -/
theorem algebraic : Cert.algebraic_KernelIdeal_ReferenceIdeal := by
  intro m ρ m' ρ' hpre hagree
  refine ⟨fun c => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  funext i
  rw [Cert.ReferenceIdeal.RefValue.result_eq]
  obtain ⟨h0, h1⟩ := Cert.Finite.reals_of_pre _ _ (hpre c)
  exact (Cert.Bridge.total_eq_upper _ _ Cert.KernelIdeal.Gen.shapeCasts_S4x64x32_S8192 h0 h1 _ _ _ scale_eq invTemp_eq).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
